-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x2 : Shape := ⟨2, ![120000, 2]⟩
abbrev S1024x2 : Shape := ⟨2, ![1024, 2]⟩
abbrev S1027x2 : Shape := ⟨2, ![1027, 2]⟩
abbrev S_ : Shape := ⟨0, ![]⟩

class Facts : Prop where
  bcast_S_S120000x2 : S_.BroadcastsInDim S120000x2 (![] : Fin 0 → Fin S120000x2.rank)
  reducesTo_S120000x2_S_d0_1 : S120000x2.ReducesTo [0, 1] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S1027x2 : S_.BroadcastsInDim S1027x2 (![] : Fin 0 → Fin S1027x2.rank)
  reducesTo_S1027x2_S_d0_1 : S1027x2.ReducesTo [0, 1] S_

variable [Facts]

def fn {F : FTy → Type} [FloatOps F] (main_arg0 : FVec F S120000x2 .f32) (main_arg1 : FVec F S1024x2 .f32) (main_arg2 : FVec F S1027x2 .f32) : IVec S_ 1 :=
  let main_v0 : FVec F S120000x2 .f32 := Host.absf main_arg0
  let main_cst : FVec F S_ .f32 := constant S_ .f32 0x7F800000#32
  let main_v1 : FVec F S120000x2 .f32 := broadcastInDim S120000x2 ![] bcast_S_S120000x2 main_cst
  let main_v2 : IVec S120000x2 1 := cmpf .olt main_v0 main_v1
  let main_c : IVec S_ 1 := constantI S_ 1 1#1
  let main_v3 : IVec S_ 1 := (fun x v => Host.reduce IntOp.andi x v reducesTo_S120000x2_S_d0_1 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  let main_v9 : FVec F S1027x2 .f32 := Host.absf main_arg2
  let main_cst_2 : FVec F S_ .f32 := constant S_ .f32 0x7F800000#32
  let main_v10 : FVec F S1027x2 .f32 := broadcastInDim S1027x2 ![] bcast_S_S1027x2 main_cst_2
  let main_v11 : IVec S1027x2 1 := cmpf .olt main_v9 main_v10
  let main_c_3 : IVec S_ 1 := constantI S_ 1 1#1
  let main_v12 : IVec S_ 1 := (fun x v => Host.reduce IntOp.andi x v reducesTo_S1027x2_S_d0_1 h_S_) main_v11 main_c_3
  let main_v13 : IVec S_ 1 := andi main_v8 main_v12
  main_v13
-- ==== Kernel.lean ====
abbrev S120000x2 : Shape := ⟨2, ![120000, 2]⟩
abbrev S1024x2 : Shape := ⟨2, ![1024, 2]⟩
abbrev S1027x2 : Shape := ⟨2, ![1027, 2]⟩
abbrev S_ : Shape := ⟨0, ![]⟩
abbrev S120832x2 : Shape := ⟨2, ![120832, 2]⟩
abbrev S2x120832 : Shape := ⟨2, ![2, 120832]⟩
abbrev S2x2048 : Shape := ⟨2, ![2, 2048]⟩
abbrev S1x2048 : Shape := ⟨2, ![1, 2048]⟩
abbrev S2048 : Shape := ⟨1, ![2048]⟩
abbrev S1024x1 : Shape := ⟨2, ![1024, 1]⟩
abbrev S1024x2048 : Shape := ⟨2, ![1024, 2048]⟩
abbrev S3x2 : Shape := ⟨2, ![3, 2]⟩
abbrev S1x1 : Shape := ⟨2, ![1, 1]⟩

abbrev nBuf : Space → Nat
  | .hbm => 10
  | .vmem => 6
  | .smem => 0
  | _ => 0

abbrev bufTy : (tb : Table) → Fin (tcTables nBuf tb) → BufTy
  | .hbm, ⟨0, _⟩ => ⟨S120000x2, .f32⟩
  | .hbm, ⟨1, _⟩ => ⟨S1024x2, .f32⟩
  | .hbm, ⟨2, _⟩ => ⟨S1027x2, .f32⟩
  | .hbm, ⟨3, _⟩ => ⟨S_, .i32⟩
  | .hbm, ⟨4, _⟩ => ⟨S_, .f32⟩
  | .hbm, ⟨5, _⟩ => ⟨S120832x2, .f32⟩
  | .hbm, ⟨6, _⟩ => ⟨S2x120832, .f32⟩
  | .hbm, ⟨7, _⟩ => ⟨S2x120832, .f32⟩
  | .hbm, ⟨8, _⟩ => ⟨S120832x2, .f32⟩
  | .hbm, ⟨9, _⟩ => ⟨S120000x2, .f32⟩
  | .local _ .vmem, ⟨0, _⟩ => ⟨S2x2048, .f32⟩
  | .local _ .vmem, ⟨1, _⟩ => ⟨S2x2048, .f32⟩
  | .local _ .vmem, ⟨2, _⟩ => ⟨S1024x2, .f32⟩
  | .local _ .vmem, ⟨3, _⟩ => ⟨S1027x2, .f32⟩
  | .local _ .vmem, ⟨4, _⟩ => ⟨S2x2048, .f32⟩
  | .local _ .vmem, ⟨5, _⟩ => ⟨S2x2048, .f32⟩
  | _, _ => ⟨S120000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![59], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1027x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S120000x2_S120832x2_08320_000 : S120000x2.Pads (![0, 0] : Fin 2 → Nat) ![832, 0] ![0, 0] S120832x2
  h_S_ : 0 < S_.numel
  transposes_S120832x2_S2x120832_1_0 : S120832x2.Transposes [1, 0] S2x120832
  inb_S2x2048_S1x2048_0_0 : ∀ a, (![0, 0] : Fin 2 → Nat) a + S1x2048.size a ≤ S2x2048.size a
  h_S1x2048 : 0 < S1x2048.numel
  shapeCasts_S1x2048_S2048 : S1x2048.ShapeCasts S2048
  inb_S2x2048_S1x2048_1_0 : ∀ a, (![1, 0] : Fin 2 → Nat) a + S1x2048.size a ≤ S2x2048.size a
  inb_S1024x2_S1024x2_0_0 : ∀ a, (![0, 0] : Fin 2 → Nat) a + S1024x2.size a ≤ S1024x2.size a
  h_S1024x2 : 0 < S1024x2.numel
  slices_S1024x2_o0_0_S1024x1 : S1024x2.Slices ![0, 0] S1024x1
  slices_S1024x2_o0_1_S1024x1 : S1024x2.Slices ![0, 1] S1024x1
  shapeCasts_S2048_S1x2048 : S2048.ShapeCasts S1x2048
  broadcasts_S1024x1_S1024x2048 : S1024x1.Broadcasts S1024x2048
  broadcasts_S1x2048_S1024x2048 : S1x2048.Broadcasts S1024x2048
  inb_S1027x2_S1027x2_0_0 : ∀ a, (![0, 0] : Fin 2 → Nat) a + S1027x2.size a ≤ S1027x2.size a
  h_S1027x2 : 0 < S1027x2.numel
  slices_S1027x2_o0_0_S1024x1 : S1027x2.Slices ![0, 0] S1024x1
  slices_S1027x2_o0_1_S1024x1 : S1027x2.Slices ![0, 1] S1024x1
  reduces_S1024x2048_S2048 : S1024x2048.Reduces [0] S2048
  slices_S1027x2_o1024_0_S3x2 : S1027x2.Slices ![1024, 0] S3x2
  slices_S3x2_o0_0_S1x1 : S3x2.Slices ![0, 0] S1x1
  inpos_S1x1_p0_0 : ∀ a, (![0, 0] : Fin 2 → Nat) a < S1x1.size a
  slices_S3x2_o1_0_S1x1 : S3x2.Slices ![1, 0] S1x1
  slices_S3x2_o2_0_S1x1 : S3x2.Slices ![2, 0] S1x1
  slices_S3x2_o0_1_S1x1 : S3x2.Slices ![0, 1] S1x1
  slices_S3x2_o1_1_S1x1 : S3x2.Slices ![1, 1] S1x1
  slices_S3x2_o2_1_S1x1 : S3x2.Slices ![2, 1] S1x1
  transposes_S2x120832_S120832x2_1_0 : S2x120832.Transposes [1, 0] S120832x2
  slices_S120832x2_S120000x2_0_0 : S120832x2.Slices ![0, 0] S120000x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048.size a ≤ S2x120832.size a
  hwx0_0 : ∀ i : grid0.Coords, EltTy.bits .f32 = 32 ∨ (Rect.block (s := S2x120832) S2x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S1024x2.size a
  hwx0_1 : ∀ i : grid0.Coords, EltTy.bits .f32 = 32 ∨ (Rect.block (s := S1024x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1027x2.size a ≤ S1027x2.size a
  hwx0_2 : ∀ i : grid0.Coords, EltTy.bits .f32 = 32 ∨ (Rect.block (s := S1027x2) S1027x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2048.size a ≤ S2x120832.size a
  hwx0_3 : ∀ i : grid0.Coords, EltTy.bits .f32 = 32 ∨ (Rect.block (s := S2x120832) S2x2048.size (cc0_transform_3 i) (hinb0_3 i)).WholeWords (EltTy.packing .f32)

variable [Facts₀]

abbrev win0_0 : Pipeline.Window sig grid0 :=
  Pipeline.Window.ofSpec (Memref.whole main_v1) S2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1027x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S120000x2 : Shape := ⟨2, ![120000, 2]⟩
abbrev S1024x2 : Shape := ⟨2, ![1024, 2]⟩
abbrev S1027x2 : Shape := ⟨2, ![1027, 2]⟩
abbrev S1024x1x2 : Shape := ⟨3, ![1024, 1, 2]⟩
abbrev S1x120000x2 : Shape := ⟨3, ![1, 120000, 2]⟩
abbrev S1024x120000x2 : Shape := ⟨3, ![1024, 120000, 2]⟩
abbrev S_ : Shape := ⟨0, ![]⟩
abbrev S1024x120000 : Shape := ⟨2, ![1024, 120000]⟩
abbrev S120000x1 : Shape := ⟨2, ![120000, 1]⟩
abbrev S120000 : Shape := ⟨1, ![120000]⟩
abbrev S1x120000 : Shape := ⟨2, ![1, 120000]⟩
abbrev S3x120000 : Shape := ⟨2, ![3, 120000]⟩
abbrev S1027x120000 : Shape := ⟨2, ![1027, 120000]⟩
abbrev S120000x1027 : Shape := ⟨2, ![120000, 1027]⟩

abbrev nBuf : Space → Nat
  | .hbm => 39
  | .vmem => 0
  | .smem => 0
  | _ => 0

abbrev bufTy : (tb : Table) → Fin (tcTables nBuf tb) → BufTy
  | .hbm, ⟨0, _⟩ => ⟨S120000x2, .f32⟩
  | .hbm, ⟨1, _⟩ => ⟨S1024x2, .f32⟩
  | .hbm, ⟨2, _⟩ => ⟨S1027x2, .f32⟩
  | .hbm, ⟨3, _⟩ => ⟨S1024x1x2, .f32⟩
  | .hbm, ⟨4, _⟩ => ⟨S1x120000x2, .f32⟩
  | .hbm, ⟨5, _⟩ => ⟨S1024x120000x2, .f32⟩
  | .hbm, ⟨6, _⟩ => ⟨S1024x120000x2, .f32⟩
  | .hbm, ⟨7, _⟩ => ⟨S1024x120000x2, .f32⟩
  | .hbm, ⟨8, _⟩ => ⟨S1024x120000x2, .f32⟩
  | .hbm, ⟨9, _⟩ => ⟨S_, .f32⟩
  | .hbm, ⟨10, _⟩ => ⟨S1024x120000, .f32⟩
  | .hbm, ⟨11, _⟩ => ⟨S_, .f32⟩
  | .hbm, ⟨12, _⟩ => ⟨S1024x120000, .f32⟩
  | .hbm, ⟨13, _⟩ => ⟨S1024x120000, .i1⟩
  | .hbm, ⟨14, _⟩ => ⟨S_, .f32⟩
  | .hbm, ⟨15, _⟩ => ⟨S_, .f32⟩
  | .hbm, ⟨16, _⟩ => ⟨S1024x120000, .f32⟩
  | .hbm, ⟨17, _⟩ => ⟨S1024x120000, .f32⟩
  | .hbm, ⟨18, _⟩ => ⟨S_, .f32⟩
  | .hbm, ⟨19, _⟩ => ⟨S1024x120000, .f32⟩
  | .hbm, ⟨20, _⟩ => ⟨S1024x120000, .f32⟩
  | .hbm, ⟨21, _⟩ => ⟨S1024x120000, .f32⟩
  | .hbm, ⟨22, _⟩ => ⟨S1024x120000, .f32⟩
  | .hbm, ⟨23, _⟩ => ⟨S120000x1, .f32⟩
  | .hbm, ⟨24, _⟩ => ⟨S120000, .f32⟩
  | .hbm, ⟨25, _⟩ => ⟨S_, .f32⟩
  | .hbm, ⟨26, _⟩ => ⟨S120000, .f32⟩
  | .hbm, ⟨27, _⟩ => ⟨S120000x1, .f32⟩
  | .hbm, ⟨28, _⟩ => ⟨S120000, .f32⟩
  | .hbm, ⟨29, _⟩ => ⟨S120000x1, .f32⟩
  | .hbm, ⟨30, _⟩ => ⟨S120000, .f32⟩
  | .hbm, ⟨31, _⟩ => ⟨S1x120000, .f32⟩
  | .hbm, ⟨32, _⟩ => ⟨S1x120000, .f32⟩
  | .hbm, ⟨33, _⟩ => ⟨S1x120000, .f32⟩
  | .hbm, ⟨34, _⟩ => ⟨S3x120000, .f32⟩
  | .hbm, ⟨35, _⟩ => ⟨S1027x120000, .f32⟩
  | .hbm, ⟨36, _⟩ => ⟨S120000x1027, .f32⟩
  | .hbm, ⟨37, _⟩ => ⟨S120000x2, .f32⟩
  | .hbm, ⟨38, _⟩ => ⟨S120000x2, .f32⟩
  | _, _ => ⟨S120000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S1024x2_S1024x1x2_0_2 : S1024x2.BroadcastsInDim S1024x1x2 (![0, 2] : Fin 2 → Fin S1024x1x2.rank)
  bcast_S120000x2_S1x120000x2_1_2 : S120000x2.BroadcastsInDim S1x120000x2 (![1, 2] : Fin 2 → Fin S1x120000x2.rank)
  bcast_S1024x1x2_S1024x120000x2_0_1_2 : S1024x1x2.BroadcastsInDim S1024x120000x2 (![0, 1, 2] : Fin 3 → Fin S1024x120000x2.rank)
  bcast_S1x120000x2_S1024x120000x2_0_1_2 : S1x120000x2.BroadcastsInDim S1024x120000x2 (![0, 1, 2] : Fin 3 → Fin S1024x120000x2.rank)
  reducesTo_S1024x120000x2_S1024x120000_d2 : S1024x120000x2.ReducesTo [2] S1024x120000
  h_S_ : 0 < S_.numel
  bcast_S_S1024x120000 : S_.BroadcastsInDim S1024x120000 (![] : Fin 0 → Fin S1024x120000.rank)
  slices_S120000x2_S120000x1_0_0 : S120000x2.Slices ![0, 0] S120000x1
  shapeCasts_S120000x1_S120000 : S120000x1.ShapeCasts S120000
  bcast_S_S120000 : S_.BroadcastsInDim S120000 (![] : Fin 0 → Fin S120000.rank)
  slices_S120000x2_S120000x1_0_1 : S120000x2.Slices ![0, 1] S120000x1
  bcast_S120000_S1x120000_1 : S120000.BroadcastsInDim S1x120000 (![1] : Fin 1 → Fin S1x120000.rank)
  concatenates_S1x120000_S1x120000_S1x120000_S3x120000_d0 : Shape.Concatenates [S1x120000, S1x120000, S1x120000] S3x120000 0
  concatenates_S1024x120000_S3x120000_S1027x120000_d0 : Shape.Concatenates [S1024x120000, S3x120000] S1027x120000 0
  transposes_S1027x120000_S120000x1027_1_0 : S1027x120000.Transposes [1, 0] S120000x1027
  dot_S120000x1027_S1027x2_S120000x2_1_0_0_1_n_n_wf : DotDims.WF S120000x1027 S1027x2 S120000x2 [1] [0] [0] [1] [] []

variable [Facts₀]

def dot_S120000x1027_S1027x2_S120000x2_1_0_0_1_n_n : DotDims S120000x1027 S1027x2 S120000x2 where
  lhsContracting := [1]
  rhsContracting := [0]
  lhsNonContracting := [0]
  rhsNonContracting := [1]
  lhsBatch := []
  rhsBatch := []
  wf := dot_S120000x1027_S1027x2_S120000x2_1_0_0_1_n_n_wf

class Facts : Prop extends Facts₀ where

variable [Facts]
-- ==== Proof.Spec.lean ====
/-
  The thin-plate-spline warp of a set of query points by a set of control points, as one function on the
  extended reals.

  For a control point `(kx, ky)` and a query point `(px, py)` let `d = (kx - px)² + (ky - py)²` be their squared
  distance, `g = 1` if `d = 0` and `g = d` otherwise, and `rbf = (½ · g) · log g` the radial basis value
  `r² log r`. With weights `W` of `1024 + 3` rows — one per control point, then the affine part's rows for the
  constant, the `x` and the `y` coordinate — the warped point's coordinate `j` is

      p_j + Σ_k rbf_k · W(k, j)  +  (W(1024, j) + W(1025, j) · px + W(1026, j) · py).

  The same number is `p_j + Σ_{r < 1027} X(r) · W(r, j)` for the column `X = (rbf_0, …, rbf_1023, 1, px, py)`:
  the sum over 1027 rows is the sum over its first 1024 plus its last three terms, `1 · w = w`, and the rest is
  the commutativity and associativity of `+` and `·`, which hold on all of the extended reals (no distributive
  law is used, so nothing here asks for a finite value).
-/
import Idealize.ShloMosaic.PureOps.Ideal
import Idealize.ShloMosaic.PureOps.Ideal.Laws
import Idealize.ShloMosaic.Lib.ValueIdx
import Mathlib.Algebra.BigOperators.Fin

noncomputable section

namespace Cert.TpsWarp

open Idealize.ShloMosaic Idealize.ShloMosaic.ValueIdx

/-- The squared distance of the control point `(kx, ky)` and the query point `(px, py)`. -/
def sqDist (kx ky px py : EReal) : EReal := (kx - px) * (kx - px) + (ky - py) * (ky - py)

/-- A squared distance with `1` standing in for `0` (so that its logarithm below is `0`, not `-∞`). -/
def guarded (d : EReal) : EReal :=
  Scalar.select (Ideal.cmp .oeq d (Ideal.ofBits .f32 0x00000000#32)) (Ideal.ofBits .f32 0x3F800000#32) d

/-- The radial basis value `r² log r` of a control point and a query point: `(½ · g) · log g` of the guarded squared
    distance `g`. -/
def rbf (kx ky px py : EReal) : EReal :=
  (Ideal.ofBits .f32 0x3F000000#32 * guarded (sqDist kx ky px py)) * Ideal.log (guarded (sqDist kx ky px py))

/-- Coordinate `j` of the warp of query point `n`: the point itself, plus the control points' radial basis values
    weighted by the first 1024 rows of `W`, plus the affine part from the last three rows. `px`, `py` are the query
    point's coordinates, `pj` the one of them that `j` names. -/
def warpOf (kps : (⟨2, ![1024, 2]⟩ : Shape).Idx → EReal) (W : (⟨2, ![1027, 2]⟩ : Shape).Idx → EReal)
    (px py pj : EReal) (j : Fin 2) : EReal :=
  (pj + ∑ k : Fin 1024, rbf (kps (ix2 k (0 : Fin 2))) (kps (ix2 k (1 : Fin 2))) px py
      * W (ix2 (⟨k.val, by omega⟩ : Fin 1027) j))
    + ((W (ix2 (⟨1024, by omega⟩ : Fin 1027) j) + W (ix2 (⟨1025, by omega⟩ : Fin 1027) j) * px)
      + W (ix2 (⟨1026, by omega⟩ : Fin 1027) j) * py)

/-- The warp of the point array `pts`, at point `n` and coordinate `j`. -/
def warpAt (pts : (⟨2, ![120000, 2]⟩ : Shape).Idx → EReal) (kps : (⟨2, ![1024, 2]⟩ : Shape).Idx → EReal)
    (W : (⟨2, ![1027, 2]⟩ : Shape).Idx → EReal) (n : Fin 120000) (j : Fin 2) : EReal :=
  warpOf kps W (pts (ix2 n (0 : Fin 2))) (pts (ix2 n (1 : Fin 2))) (pts (ix2 n j)) j

/-- The word `0x3F800000` denotes `1`. -/
theorem ofBits_one_f32 : Ideal.ofBits .f32 0x3F800000#32 = 1 := by
  simp [Ideal.ofBits, Ideal.ieee]
  exact_mod_cast (by norm_num : ((8388608 : ℝ) * ((2 : ℝ) ^ 23)⁻¹) = 1)

/-- A sum over 1027 rows is the sum over the first 1024 plus the last three terms. -/
theorem sum_1027 (f : Fin 1027 → EReal) :
    ∑ r : Fin 1027, f r = (∑ k : Fin 1024, f ⟨k.val, by omega⟩) + f ⟨1024, by omega⟩ + f ⟨1025, by omega⟩
      + f ⟨1026, by omega⟩ := by
  rw [Fin.sum_univ_castSucc (n := 1026), Fin.sum_univ_castSucc (n := 1025), Fin.sum_univ_castSucc (n := 1024)]
  rfl

/-- THE LAW that joins the two programs: the point plus the contraction of the column
    `(rbf_0, …, rbf_1023, 1, px, py)` with `W(·, j)` is the warp. -/
theorem contraction_eq_warpOf (kps : (⟨2, ![1024, 2]⟩ : Shape).Idx → EReal) (W : (⟨2, ![1027, 2]⟩ : Shape).Idx → EReal)
    (px py pj : EReal) (j : Fin 2) (X : Fin 1027 → EReal)
    (hX : ∀ k : Fin 1024, X ⟨k.val, by omega⟩ = rbf (kps (ix2 k (0 : Fin 2))) (kps (ix2 k (1 : Fin 2))) px py)
    (h1 : X ⟨1024, by omega⟩ = 1) (hx : X ⟨1025, by omega⟩ = px) (hy : X ⟨1026, by omega⟩ = py) :
    pj + ∑ r : Fin 1027, X r * W (ix2 r j) = warpOf kps W px py pj j := by
  rw [sum_1027 (fun r => X r * W (ix2 r j))]
  simp only [hX, h1, hx, hy, one_mul]
  unfold warpOf
  rw [mul_comm px, mul_comm py]
  simp only [add_assoc]

end Cert.TpsWarp

end
-- ==== Proof.RefRead.lean ====
/-
  The reference, read at point `n` and coordinate `j`, is the warp `Cert.TpsWarp.warpAt`.

  Its `@main` forms the 1024 × 120000 matrix of radial basis values, stacks the three rows `1`, `x`, `y` of the
  points under it, transposes the 1027 × 120000 result and contracts it with `W` over its 1027 columns; the
  result is added to the points. Read at `(n, j)`: the stage's column at row `r < 1024` is the radial basis value
  of control point `r` and point `n`, at rows 1024, 1025, 1026 it is `1`, `x_n`, `y_n`; the contraction is the
  sum over `r < 1027`, which `Cert.TpsWarp.contraction_eq_warpOf` turns into the warp.
-/
import proofs.«118993_j17463337025574_1_alg».proof.Proof.Gen.ReferenceIdeal.Read
import proofs.«118993_j17463337025574_1_alg».proof.Proof.Spec

noncomputable section

namespace Cert.TpsWarp.Ref

open Cert.ReferenceIdeal Cert.ReferenceIdeal.Gen Cert.ReferenceIdeal.Read
open Idealize.ShloMosaic Idealize.ShloMosaic.TcCoe Idealize.ShloMosaic.ValueIdx Cert.TpsWarp

variable (pts : (⟨S120000x2, .f32⟩ : BufTy).Contents (Elt Ideal)) (kps : (⟨S1024x2, .f32⟩ : BufTy).Contents (Elt Ideal))
  (W : (⟨S1027x2, .f32⟩ : BufTy).Contents (Elt Ideal))

/-- The sum over the coordinate axis of the squared differences is the squared distance of control point `k` and
    point `n` (the sum's initial value is `0`). -/
theorem sqDist_eq (k : Fin 1024) (n : Fin 120000) :
    val_main_v6 (F := Ideal) pts kps (ix2 k n)
      = sqDist (kps (ix2 k (0 : Fin 2))) (kps (ix2 k (1 : Fin 2))) (pts (ix2 n (0 : Fin 2))) (pts (ix2 n (1 : Fin 2))) := by
  have ek0 : idx_main_v0 (idx_main_v2 (idx_main_v6 (ix2 k n) 0)) = ix2 k (0 : Fin 2) :=
    funext fun a => Fin.ext (by match a with | ⟨0, _⟩ => rfl | ⟨1, _⟩ => rfl)
  have ek1 : idx_main_v0 (idx_main_v2 (idx_main_v6 (ix2 k n) 1)) = ix2 k (1 : Fin 2) :=
    funext fun a => Fin.ext (by match a with | ⟨0, _⟩ => rfl | ⟨1, _⟩ => rfl)
  have ep0 : idx_main_v1 (idx_main_v3 (idx_main_v6 (ix2 k n) 0)) = ix2 n (0 : Fin 2) :=
    funext fun a => Fin.ext (by match a with | ⟨0, _⟩ => rfl | ⟨1, _⟩ => rfl)
  have ep1 : idx_main_v1 (idx_main_v3 (idx_main_v6 (ix2 k n) 1)) = ix2 n (1 : Fin 2) :=
    funext fun a => Fin.ext (by match a with | ⟨0, _⟩ => rfl | ⟨1, _⟩ => rfl)
  rw [val_main_v6_apply, Fin.sum_univ_two]
  simp only [val_main_v5_apply, val_main_v4_apply, val_main_v2_apply, val_main_v3_apply, val_main_v0_apply,
    val_main_v1_apply, val_main_cst_apply, ek0, ek1, ep0, ep1, Ideal.ofBits_def, Ideal.ofBits_zero_f32, zero_add,
    Ideal.subf_def, Ideal.mulf_def]
  rfl

/-- The stage `(½ · g) · log g` of the guarded squared distance is the radial basis value. -/
theorem rbf_eq (k : Fin 1024) (n : Fin 120000) :
    val_main_v13 (F := Ideal) pts kps (ix2 k n)
      = rbf (kps (ix2 k (0 : Fin 2))) (kps (ix2 k (1 : Fin 2))) (pts (ix2 n (0 : Fin 2))) (pts (ix2 n (1 : Fin 2))) := by
  unfold rbf guarded
  simp only [val_main_v13_apply, val_main_v11_apply, val_main_v12_apply, val_main_v10_apply, val_main_cst_2_apply,
    val_main_v9_apply, val_main_v8_apply, val_main_v7_apply, val_main_cst_0_apply, val_main_call0_v1_apply,
    val_main_call0_v0_apply, val_main_cst_1_apply, sqDist_eq, Ideal.mulf_def, Ideal.hostUnary_log_def, Ideal.cmpf_def,
    Ideal.ofBits_def]

/-- The three stacked rows, read at row `q` and point `n`: the constant `1`, then the points' two coordinates. -/
theorem affineRows_0 (n : Fin 120000) : val_main_v24 (F := Ideal) pts (ix2 (0 : Fin 3) n) = 1 := by
  unfold val_main_v24
  rw [concatenate_apply_piece (t := S3x120000) (0 : Fin 2)
    ([⟨S1x120000, val_main_v21 (F := Ideal)⟩, ⟨S1x120000, val_main_v22 (F := Ideal) pts⟩, ⟨S1x120000, val_main_v23 (F := Ideal) pts⟩] : List ((s : Shape) × (s.Idx → Elt Ideal .f32)))
    concatenates_S1x120000_S1x120000_S1x120000_S3x120000_d0 (ix2 (0 : Fin 3) n)
    0 (by show (0 : Nat) < 3; omega) S1x120000 (val_main_v21 (F := Ideal)) rfl rfl 0 rfl (ix2 (0 : Fin 1) n)
    (fun b hb => by match b with | ⟨0, _⟩ => exact absurd rfl hb | ⟨1, _⟩ => rfl) rfl]
  rw [val_main_v21_apply, val_main_v16_apply, val_main_cst_3_apply, Ideal.ofBits_def, ofBits_one_f32]

theorem affineRows_1 (n : Fin 120000) : val_main_v24 (F := Ideal) pts (ix2 (1 : Fin 3) n) = pts (ix2 n (0 : Fin 2)) := by
  unfold val_main_v24
  rw [concatenate_apply_piece (t := S3x120000) (0 : Fin 2)
    ([⟨S1x120000, val_main_v21 (F := Ideal)⟩, ⟨S1x120000, val_main_v22 (F := Ideal) pts⟩, ⟨S1x120000, val_main_v23 (F := Ideal) pts⟩] : List ((s : Shape) × (s.Idx → Elt Ideal .f32)))
    concatenates_S1x120000_S1x120000_S1x120000_S3x120000_d0 (ix2 (1 : Fin 3) n)
    1 (by show (1 : Nat) < 3; omega) S1x120000 (val_main_v22 (F := Ideal) pts) rfl rfl 1 rfl (ix2 (0 : Fin 1) n)
    (fun b hb => by match b with | ⟨0, _⟩ => exact absurd rfl hb | ⟨1, _⟩ => rfl) rfl]
  rw [val_main_v22_apply, val_main_v18_apply, val_main_v17_apply]
  exact congrArg pts (funext fun a => Fin.ext (by match a with | ⟨0, _⟩ => exact Nat.div_one _ | ⟨1, _⟩ => rfl))

theorem affineRows_2 (n : Fin 120000) : val_main_v24 (F := Ideal) pts (ix2 (2 : Fin 3) n) = pts (ix2 n (1 : Fin 2)) := by
  unfold val_main_v24
  rw [concatenate_apply_piece (t := S3x120000) (0 : Fin 2)
    ([⟨S1x120000, val_main_v21 (F := Ideal)⟩, ⟨S1x120000, val_main_v22 (F := Ideal) pts⟩, ⟨S1x120000, val_main_v23 (F := Ideal) pts⟩] : List ((s : Shape) × (s.Idx → Elt Ideal .f32)))
    concatenates_S1x120000_S1x120000_S1x120000_S3x120000_d0 (ix2 (2 : Fin 3) n)
    2 (by show (2 : Nat) < 3; omega) S1x120000 (val_main_v23 (F := Ideal) pts) rfl rfl 2 rfl (ix2 (0 : Fin 1) n)
    (fun b hb => by match b with | ⟨0, _⟩ => exact absurd rfl hb | ⟨1, _⟩ => rfl) rfl]
  rw [val_main_v23_apply, val_main_v20_apply, val_main_v19_apply]
  exact congrArg pts (funext fun a => Fin.ext (by match a with | ⟨0, _⟩ => exact Nat.div_one _ | ⟨1, _⟩ => rfl))

/-- The stacked matrix's column `n`, at a row `r < 1024`: the radial basis stage. -/
theorem column_top (k : Fin 1024) (n : Fin 120000) :
    val_main_v26 (F := Ideal) pts kps (ix2 n (⟨k.val, by omega⟩ : Fin 1027)) = val_main_v13 (F := Ideal) pts kps (ix2 k n) := by
  rw [val_main_v26_apply]
  unfold val_main_v25
  exact concatenate_pair_apply_left (t := S1027x120000) (s₁ := S1024x120000) (s₂ := S3x120000) (0 : Fin 2)
    (val_main_v13 (F := Ideal) pts kps) (val_main_v24 (F := Ideal) pts) concatenates_S1024x120000_S3x120000_S1027x120000_d0
    (idx_main_v26 (ix2 n (⟨k.val, by omega⟩ : Fin 1027))) rfl (ix2 k n)
    (fun b => by match b with | ⟨0, _⟩ => rfl | ⟨1, _⟩ => rfl)

/-- The stacked matrix's column `n`, at row `1024 + q`: the affine rows. -/
theorem column_bottom (q : Fin 3) (n : Fin 120000) :
    val_main_v26 (F := Ideal) pts kps (ix2 n (⟨1024 + q.val, by omega⟩ : Fin 1027)) = val_main_v24 (F := Ideal) pts (ix2 q n) := by
  rw [val_main_v26_apply]
  unfold val_main_v25
  exact concatenate_pair_apply_right (t := S1027x120000) (s₁ := S1024x120000) (s₂ := S3x120000) (0 : Fin 2)
    (val_main_v13 (F := Ideal) pts kps) (val_main_v24 (F := Ideal) pts) concatenates_S1024x120000_S3x120000_S1027x120000_d0
    (idx_main_v26 (ix2 n (⟨1024 + q.val, by omega⟩ : Fin 1027))) rfl rfl (ix2 q n)
    (fun b hb => by match b with | ⟨0, _⟩ => exact absurd rfl hb | ⟨1, _⟩ => rfl) (Nat.add_comm _ _)

/-- THE REFERENCE AT `(n, j)` is the warp. -/
theorem result_apply (n : Fin 120000) (j : Fin 2) :
    val_main_v28 (F := Ideal) pts kps W (ix2 n j) = warpAt pts kps W n j := by
  rw [val_main_v28_apply, val_main_v27_apply, Ideal.addf_def]
  have er : ∀ r : Fin 1027, ridx_main_v27 (ix2 n j) r = ix2 r j := fun r =>
    funext fun a => Fin.ext (by match a with | ⟨0, _⟩ => rfl | ⟨1, _⟩ => rfl)
  have el : ∀ r : Fin 1027, lidx_main_v27 (ix2 n j) r = ix2 n r := fun r =>
    funext fun a => Fin.ext (by match a with | ⟨0, _⟩ => rfl | ⟨1, _⟩ => rfl)
  simp only [er, el]
  exact contraction_eq_warpOf kps W _ _ _ j (fun r => val_main_v26 (F := Ideal) pts kps (ix2 n r))
    (fun k => (column_top pts kps k n).trans (rbf_eq pts kps k n))
    ((column_bottom pts kps 0 n).trans (affineRows_0 pts n))
    ((column_bottom pts kps 1 n).trans (affineRows_1 pts n))
    ((column_bottom pts kps 2 n).trans (affineRows_2 pts n))

end Cert.TpsWarp.Ref

end
-- ==== Proof.KernelBlock.lean ====
/-
  What the kernel body leaves in its output block, index by index.

  The body is called with a `[2, 2048]` tile `P` of the transposed point array (row 0 the `x` coordinates of 2048
  points, row 1 their `y` coordinates), the control points `kps` and the weights `W`, both whole. It forms the
  `1024 × 2048` matrix of radial basis values of every control point and every point of the tile, multiplies it by a
  column of `W` and sums over the control points; the affine part is read off the last three rows of `W`. Row `j`
  of the result, at lane `q`, is the warp's coordinate `j` of the tile's point `q`:
  `Cert.TpsWarp.warpOf kps W P(0, q) P(1, q) P(j, q) j`. The body stores row 0 and row 1 separately; the two stores
  tile the block.
-/
import proofs.«118993_j17463337025574_1_alg».proof.Proof.Gen.KernelIdeal.Frame
import proofs.«118993_j17463337025574_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.TpsWarp.Block

open Cert.KernelIdeal Cert.KernelIdeal.Gen Idealize.ShloMosaic Idealize.ShloMosaic.TcCoe Idealize.ShloMosaic.ValueIdx
open Cert.TpsWarp

/-! ## Two layout readings -/

section Layout
variable {α : Type}

/-- A column `[a, 1]` broadcast along its unit axis to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A slice of a matrix on both axes reads, at `(r, c)`, the matrix at the offsets plus `(r, c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ _ _ _ _ (fun ax => by
    match ax with
    | ⟨0, _⟩ => exact hr
    | ⟨1, _⟩ => exact hc)

end Layout

/-- The logarithm of a vector, at an index. -/
theorem log_apply {s : Shape} {φ : FTy} (x : FVec Ideal s φ) (i : s.Idx) : log x i = Ideal.log (x i) := rfl

/-- The reduced index `q` with row `k` put back is `(k, q)`. -/
theorem lift_rows (q : Fin 2048) (k : Fin (S1024x2048.size 0)) :
    reduces_S1024x2048_S2048.lift (ix1 q) k = ix2 (⟨k.val, k.isLt⟩ : Fin 1024) q := by
  funext c; apply Fin.ext
  fin_cases c <;> rfl

/-! ## The loads -/

/-- The tile's row `0`, loaded as a `[1, 2048]` vector. -/
theorem ld_row0 (P : Vec Ideal S2x2048 .f32) (q : Fin 2048) : View.ld P r0_0 (ix2 (0 : Fin 1) q) = P (ix2 (0 : Fin 2) q) :=
  congrArg P (funext fun a => Fin.ext (by
    match a with
    | ⟨0, _⟩ => rfl
    | ⟨1, _⟩ => show 0 + 1 * q.val = q.val; omega))

/-- The tile's row `1`. -/
theorem ld_row1 (P : Vec Ideal S2x2048 .f32) (q : Fin 2048) : View.ld P r0_1 (ix2 (0 : Fin 1) q) = P (ix2 (1 : Fin 2) q) :=
  congrArg P (funext fun a => Fin.ext (by
    match a with
    | ⟨0, _⟩ => rfl
    | ⟨1, _⟩ => show 0 + 1 * q.val = q.val; omega))

theorem hz : (![0, 0] : Fin 2 → Nat) = fun _ => 0 := funext fun a => by fin_cases a <;> rfl

/-! ## The body's values, read at an index -/

section Payloads
variable (v0 v2 : Vec Ideal S1x2048 .f32) (v4 : Vec Ideal S1024x2 .f32) (v26 : Vec Ideal S1027x2 .f32)

/-- A loaded row as a vector of 2048 lanes. -/
theorem pay3_apply (q : Fin 2048) : k0_pay3 v0 (ix1 q) = v0 (ix2 (0 : Fin 1) q) := by
  unfold k0_pay3
  exact shapeCast_1a_a_apply v0 shapeCasts_S1x2048_S2048 q

theorem pay4_apply (q : Fin 2048) : k0_pay4 v2 (ix1 q) = v2 (ix2 (0 : Fin 1) q) := by
  unfold k0_pay4
  exact shapeCast_1a_a_apply v2 shapeCasts_S1x2048_S2048 q

/-- The control points' `x` coordinates, spread over the lanes. -/
theorem kxCol_apply (k : Fin 1024) (q : Fin 2048) :
    broadcastTo S1024x2048 (extractStridedSlice S1024x1 ![0, 0] v4 slices_S1024x2_o0_0_S1024x1) broadcasts_S1024x1_S1024x2048 (ix2 k q)
      = v4 (ix2 k (0 : Fin 2)) :=
  (broadcastTo_a1_ab_apply _ broadcasts_S1024x1_S1024x2048 k q).trans
    (slice2_apply 0 0 v4 slices_S1024x2_o0_0_S1024x1 k (0 : Fin 1) k (0 : Fin 2) (Nat.zero_add _).symm rfl)

/-- Their `y` coordinates. -/
theorem kyCol_apply (k : Fin 1024) (q : Fin 2048) :
    broadcastTo S1024x2048 (extractStridedSlice S1024x1 ![0, 1] v4 slices_S1024x2_o0_1_S1024x1) broadcasts_S1024x1_S1024x2048 (ix2 k q)
      = v4 (ix2 k (1 : Fin 2)) :=
  (broadcastTo_a1_ab_apply _ broadcasts_S1024x1_S1024x2048 k q).trans
    (slice2_apply 0 1 v4 slices_S1024x2_o0_1_S1024x1 k (0 : Fin 1) k (1 : Fin 2) (Nat.zero_add _).symm rfl)

/-- The points' `x` coordinates, spread over the control points. -/
theorem pxRow_apply (k : Fin 1024) (q : Fin 2048) :
    broadcastTo S1024x2048 (shapeCast S1x2048 (k0_pay3 v0) shapeCasts_S2048_S1x2048) broadcasts_S1x2048_S1024x2048 (ix2 k q)
      = v0 (ix2 (0 : Fin 1) q) :=
  (broadcastTo_1b_ab_apply _ broadcasts_S1x2048_S1024x2048 k q).trans
    ((shapeCast_a_1a_apply (k0_pay3 v0) shapeCasts_S2048_S1x2048 (0 : Fin 1) q).trans (pay3_apply v0 q))

/-- Their `y` coordinates. -/
theorem pyRow_apply (k : Fin 1024) (q : Fin 2048) :
    broadcastTo S1024x2048 (shapeCast S1x2048 (k0_pay4 v2) shapeCasts_S2048_S1x2048) broadcasts_S1x2048_S1024x2048 (ix2 k q)
      = v2 (ix2 (0 : Fin 1) q) :=
  (broadcastTo_1b_ab_apply _ broadcasts_S1x2048_S1024x2048 k q).trans
    ((shapeCast_a_1a_apply (k0_pay4 v2) shapeCasts_S2048_S1x2048 (0 : Fin 1) q).trans (pay4_apply v2 q))

/-- THE RADIAL BASIS MATRIX: entry `(k, q)` is the radial basis value of control point `k` and the tile's point `q`. -/
theorem pay5_apply (k : Fin 1024) (q : Fin 2048) :
    k0_pay5 v0 v2 v4 (ix2 k q)
      = rbf (v4 (ix2 k (0 : Fin 2))) (v4 (ix2 k (1 : Fin 2))) (v0 (ix2 (0 : Fin 1) q)) (v2 (ix2 (0 : Fin 1) q)) := by
  unfold k0_pay5 rbf guarded sqDist
  simp only [mulf_apply, addf_apply, subf_apply, select_apply, cmpf_apply, broadcast_apply, log_apply,
    pxRow_apply, pyRow_apply, Ideal.cmpf_def]
  rw [kxCol_apply v4 k q, kyCol_apply v4 k q]
  rfl

/-- Column `j` of the weights' first 1024 rows, spread over the lanes. -/
theorem wCol0_apply (k : Fin 1024) (q : Fin 2048) :
    broadcastTo S1024x2048 (extractStridedSlice S1024x1 ![0, 0] v26 slices_S1027x2_o0_0_S1024x1) broadcasts_S1024x1_S1024x2048 (ix2 k q)
      = v26 (ix2 (⟨k.val, by omega⟩ : Fin 1027) (0 : Fin 2)) :=
  (broadcastTo_a1_ab_apply _ broadcasts_S1024x1_S1024x2048 k q).trans
    (slice2_apply 0 0 v26 slices_S1027x2_o0_0_S1024x1 k (0 : Fin 1) ⟨k.val, by omega⟩ (0 : Fin 2) (Nat.zero_add _).symm rfl)

theorem wCol1_apply (k : Fin 1024) (q : Fin 2048) :
    broadcastTo S1024x2048 (extractStridedSlice S1024x1 ![0, 1] v26 slices_S1027x2_o0_1_S1024x1) broadcasts_S1024x1_S1024x2048 (ix2 k q)
      = v26 (ix2 (⟨k.val, by omega⟩ : Fin 1027) (1 : Fin 2)) :=
  (broadcastTo_a1_ab_apply _ broadcasts_S1024x1_S1024x2048 k q).trans
    (slice2_apply 0 1 v26 slices_S1027x2_o0_1_S1024x1 k (0 : Fin 1) ⟨k.val, by omega⟩ (1 : Fin 2) (Nat.zero_add _).symm rfl)

/-- THE WEIGHTED SUMS over the control points, one per coordinate. -/
theorem pay6_apply (q : Fin 2048) :
    k0_pay6 v0 v2 v4 v26 (ix1 q)
      = ∑ k : Fin 1024, rbf (v4 (ix2 k (0 : Fin 2))) (v4 (ix2 k (1 : Fin 2))) (v0 (ix2 (0 : Fin 1) q)) (v2 (ix2 (0 : Fin 1) q))
          * v26 (ix2 (⟨k.val, by omega⟩ : Fin 1027) (0 : Fin 2)) := by
  unfold k0_pay6
  refine (Ideal.multiReduction_add_single (s := S1024x2048) (t := S2048) (a := (0 : Fin 2)) _ 0x00000000#32
    reduces_S1024x2048_S2048 (.inl rfl) rfl (ix1 q)).trans ?_
  refine Finset.sum_congr rfl fun k _ => ?_
  rw [lift_rows, mulf_apply, pay5_apply, wCol0_apply]
  rfl

theorem pay7_apply (q : Fin 2048) :
    k0_pay7 v0 v2 v4 v26 (ix1 q)
      = ∑ k : Fin 1024, rbf (v4 (ix2 k (0 : Fin 2))) (v4 (ix2 k (1 : Fin 2))) (v0 (ix2 (0 : Fin 1) q)) (v2 (ix2 (0 : Fin 1) q))
          * v26 (ix2 (⟨k.val, by omega⟩ : Fin 1027) (1 : Fin 2)) := by
  unfold k0_pay7
  refine (Ideal.multiReduction_add_single (s := S1024x2048) (t := S2048) (a := (0 : Fin 2)) _ 0x00000000#32
    reduces_S1024x2048_S2048 (.inl rfl) rfl (ix1 q)).trans ?_
  refine Finset.sum_congr rfl fun k _ => ?_
  rw [lift_rows, mulf_apply, pay5_apply, wCol1_apply]
  rfl

/-- The weights' last three rows. -/
theorem pay8_apply (r : Fin 3) (j : Fin 2) : k0_pay8 v26 (ix2 r j) = v26 (ix2 (⟨1024 + r.val, by omega⟩ : Fin 1027) j) := by
  unfold k0_pay8
  exact slice2_apply 1024 0 v26 slices_S1027x2_o1024_0_S3x2 r j ⟨1024 + r.val, by omega⟩ j rfl (Nat.zero_add _).symm

/-- One entry of a `[3, 2]` vector, cut out as a `[1, 1]` slice and taken out as a scalar. -/
theorem entry_apply (v35 : FVec Ideal S3x2 .f32) (off : Fin S3x2.rank → Nat) (h : S3x2.Slices off S1x1)
    (hp : ∀ a, (![0, 0] : Fin S1x1.rank → Nat) a < S1x1.size a) (r : Fin 3) (j : Fin 2) (hr : r.val = off 0) (hj : j.val = off 1) :
    extractAt ![0, 0] (extractStridedSlice S1x1 off v35 h) hp = v35 (ix2 r j) := by
  unfold extractAt
  exact extractStridedSlice_apply off v35 h _ (ix2 r j) (fun a => by
    match a with
    | ⟨0, _⟩ => exact hr.trans (Nat.add_zero _).symm
    | ⟨1, _⟩ => exact hj.trans (Nat.add_zero _).symm)

/-- The affine part's constant and `x` terms, for coordinate 0. -/
theorem pay9_apply (q : Fin 2048) :
    k0_pay9 v0 v26 (ix1 q)
      = v26 (ix2 (⟨1024, by omega⟩ : Fin 1027) (0 : Fin 2)) + v26 (ix2 (⟨1025, by omega⟩ : Fin 1027) (0 : Fin 2)) * v0 (ix2 (0 : Fin 1) q) := by
  unfold k0_pay9
  simp only [addf_apply, mulf_apply, broadcast_apply, pay3_apply]
  rw [entry_apply (k0_pay8 v26) ![0, 0] slices_S3x2_o0_0_S1x1 inpos_S1x1_p0_0 0 0 rfl rfl,
    entry_apply (k0_pay8 v26) ![1, 0] slices_S3x2_o1_0_S1x1 inpos_S1x1_p0_0 1 0 rfl rfl, pay8_apply, pay8_apply]
  rfl

/-- The weight of the `y` term, for coordinate 0. -/
theorem pay10_apply : k0_pay10 v26 = v26 (ix2 (⟨1026, by omega⟩ : Fin 1027) (0 : Fin 2)) := by
  unfold k0_pay10
  exact (entry_apply (k0_pay8 v26) ![2, 0] slices_S3x2_o2_0_S1x1 inpos_S1x1_p0_0 2 0 rfl rfl).trans (pay8_apply v26 2 0)

end Payloads

/-! ## The two stored rows -/

/-- The first store's value: the point's coordinate plus the weighted sum, plus the affine part. -/
theorem pay1_apply (v1 v3 v31 v43 : FVec Ideal S2048 .f32) (v45 : Ideal .f32) (q : Fin 2048) :
    k0_pay1 v1 v3 v31 v43 v45 (ix2 (0 : Fin 1) q) = (v1 (ix1 q) + v31 (ix1 q)) + (v43 (ix1 q) + v45 * v3 (ix1 q)) := by
  unfold k0_pay1
  exact shapeCast_a_1a_apply _ shapeCasts_S2048_S1x2048 (0 : Fin 1) q

/-- The second store's value, its affine part read off the `[3, 2]` vector of the weights' last rows. -/
theorem pay2_apply (v1 v3 v34 : FVec Ideal S2048 .f32) (v35 : FVec Ideal S3x2 .f32) (q : Fin 2048) :
    k0_pay2 v1 v3 v34 v35 (ix2 (0 : Fin 1) q)
      = (v3 (ix1 q) + v34 (ix1 q))
        + ((v35 (ix2 (0 : Fin 3) (1 : Fin 2)) + v35 (ix2 (1 : Fin 3) (1 : Fin 2)) * v1 (ix1 q)) + v35 (ix2 (2 : Fin 3) (1 : Fin 2)) * v3 (ix1 q)) := by
  unfold k0_pay2
  refine (shapeCast_a_1a_apply _ shapeCasts_S2048_S1x2048 (0 : Fin 1) q).trans ?_
  simp only [addf_apply, mulf_apply, broadcast_apply]
  rw [entry_apply v35 ![0, 1] slices_S3x2_o0_1_S1x1 inpos_S1x1_p0_0 0 1 rfl rfl,
    entry_apply v35 ![1, 1] slices_S3x2_o1_1_S1x1 inpos_S1x1_p0_0 1 1 rfl rfl,
    entry_apply v35 ![2, 1] slices_S3x2_o2_1_S1x1 inpos_S1x1_p0_0 2 1 rfl rfl]

/-! ## The block as one function -/

/-- The body's output block as ONE function of the tile `P` and the two whole operands: at `(j, q)` the warp's
    coordinate `j` of the tile's point `q`. -/
def blockFn (P : Vec Ideal S2x2048 .f32) (kps : Vec Ideal S1024x2 .f32) (W : Vec Ideal S1027x2 .f32) : S2x2048.Idx → EReal :=
  fun y => warpOf kps W (P (ix2 (0 : Fin 2) (y 1))) (P (ix2 (1 : Fin 2) (y 1))) (P y) (y 0)

section Rows
variable (P : Vec Ideal S2x2048 .f32) (kps : Vec Ideal S1024x2 .f32) (W : Vec Ideal S1027x2 .f32)

/-- The value stored to row 0, at lane `q`. -/
theorem row0_apply (q : Fin 2048) :
    k0_pay1 (k0_pay3 (View.ld P r0_0)) (k0_pay4 (View.ld P r0_1))
        (k0_pay6 (View.ld P r0_0) (View.ld P r0_1) (View.ld kps r0_2) (View.ld W r0_3))
        (k0_pay9 (View.ld P r0_0) (View.ld W r0_3)) (k0_pay10 (View.ld W r0_3)) (ix2 (0 : Fin 1) q)
      = warpOf kps W (P (ix2 (0 : Fin 2) q)) (P (ix2 (1 : Fin 2) q)) (P (ix2 (0 : Fin 2) q)) (0 : Fin 2) := by
  rw [pay1_apply, pay3_apply, pay4_apply, pay6_apply, pay9_apply, pay10_apply, ld_row0, ld_row1,
    View.ld_unit_zero (S := S1024x2) hz, View.ld_unit_zero (S := S1027x2) hz]
  rfl

/-- The value stored to row 1, at lane `q`. -/
theorem row1_apply (q : Fin 2048) :
    k0_pay2 (k0_pay3 (View.ld P r0_0)) (k0_pay4 (View.ld P r0_1))
        (k0_pay7 (View.ld P r0_0) (View.ld P r0_1) (View.ld kps r0_2) (View.ld W r0_3))
        (k0_pay8 (View.ld W r0_3)) (ix2 (0 : Fin 1) q)
      = warpOf kps W (P (ix2 (0 : Fin 2) q)) (P (ix2 (1 : Fin 2) q)) (P (ix2 (1 : Fin 2) q)) (1 : Fin 2) := by
  rw [pay2_apply, pay3_apply, pay4_apply, pay7_apply, pay8_apply, pay8_apply, pay8_apply, ld_row0, ld_row1,
    View.ld_unit_zero (S := S1024x2) hz, View.ld_unit_zero (S := S1027x2) hz]
  rfl

/-- Row `0` of the block is where the first store's rectangle sits, row `1` the second's. -/
theorem emb_row0 (q : Fin 2048) : r0_0.emb (ix2 (0 : Fin 1) q) = ix2 (0 : Fin 2) q :=
  funext fun a => Fin.ext (by
    match a with
    | ⟨0, _⟩ => rfl
    | ⟨1, _⟩ => show 0 + 1 * q.val = q.val; omega)

theorem emb_row1 (q : Fin 2048) : r0_1.emb (ix2 (0 : Fin 1) q) = ix2 (1 : Fin 2) q :=
  funext fun a => Fin.ext (by
    match a with
    | ⟨0, _⟩ => rfl
    | ⟨1, _⟩ => show 0 + 1 * q.val = q.val; omega)

/-- WHAT THE BODY LEAVES in its output block is `blockFn` of its three input blocks: each of the two stores writes the
    part of that function its rectangle names, and the two rectangles cover the block. -/
theorem out_eq : out0_3 P kps W = blockFn P kps W := by
  funext y
  unfold out0_3
  refine View.canon_apply_of_pieces (Val := Elt Ideal) (S := S2x2048) (e := .f32) (blockFn P kps W) _ ?_ y (cover0_3 _ _ y)
  intro p hp x
  simp only [List.mem_cons, List.mem_nil_iff, or_false] at hp
  rcases hp with rfl | rfl
  · obtain ⟨u, q, rfl⟩ : ∃ (u : Fin 1) (q : Fin 2048), x = ix2 u q := ⟨x 0, x 1, eq_ix2 x⟩
    obtain rfl : u = 0 := Subsingleton.elim _ _
    show k0_pay2 (F := Ideal) _ _ _ _ (ix2 (0 : Fin 1) q) = blockFn P kps W (r0_1.emb (ix2 (0 : Fin 1) q))
    rw [emb_row1, row1_apply]
    rfl
  · obtain ⟨u, q, rfl⟩ : ∃ (u : Fin 1) (q : Fin 2048), x = ix2 u q := ⟨x 0, x 1, eq_ix2 x⟩
    obtain rfl : u = 0 := Subsingleton.elim _ _
    show k0_pay1 (F := Ideal) _ _ _ _ _ (ix2 (0 : Fin 1) q) = blockFn P kps W (r0_0.emb (ix2 (0 : Fin 1) q))
    rw [emb_row0, row0_apply]
    rfl

end Rows

end Cert.TpsWarp.Block

end
-- ==== Proof.KernelArray.lean ====
/-
  The array the region leaves, as one function.

  The region's output array is `[2, 120832]`, written back in 59 blocks of `[2, 2048]`: point `t` of the grid writes
  the block of columns `2048·t … 2048·t + 2047`, and reads the block of the same columns of the transposed point
  array; the control points and the weights are read whole at every point. So what point `t` writes back is block
  `t` of ONE function of the three arrays as the region finds them — at `(j, n)` the warp's coordinate `j` of the
  point in column `n` — and the 59 blocks tile the array: it ends holding that function.
-/
import proofs.«118993_j17463337025574_1_alg».proof.Proof.KernelBlock

noncomputable section

namespace Cert.TpsWarp.Region

open Cert.KernelIdeal Cert.KernelIdeal.Gen Idealize.ShloMosaic Idealize.ShloMosaic.TcCoe Idealize.ShloMosaic.ValueIdx
open Idealize.SL.Sem
open Idealize.ShloMosaic.Pipeline (Dat)
open Cert.TpsWarp Cert.TpsWarp.Block

variable (m : (ℓ : Loc nD τ sig) → Buf (Elt Ideal) ℓ) (ρ : Dev nD → PrngReg)

/-- The warp over the TRANSPOSED point array `Pt` (row 0 the `x` coordinates, row 1 the `y` coordinates): at
    `(j, n)` coordinate `j` of the warp of the point in column `n`. -/
def warpT (Pt : S2x120832.Idx → EReal) (kps : S1024x2.Idx → EReal) (W : S1027x2.Idx → EReal) : S2x120832.Idx → EReal :=
  fun i => warpOf kps W (Pt (ix2 (0 : Fin 2) (i 1))) (Pt (ix2 (1 : Fin 2) (i 1))) (Pt i) (i 0)

/-- The printed index maps over the grid: the point array's window and the output's sit at block `(0, t)`, the
    control points' and the weights' at block `(0, 0)`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The control points' window holds the whole array at every point. -/
theorem iblk1_eq (c : Dev nD) (t : Fin cfg0.N) : iblk m c 1 t = V m c main_arg1 := by
  obtain ⟨-, -, e0, e1, -, -, -, -⟩ := idx_facts t
  funext x
  show V m c main_arg1 (((cfg0.win 1).blk t).view.emb x) = V m c main_arg1 x
  refine congrArg (V m c main_arg1) (funext fun a => Fin.ext ?_)
  match a with
  | ⟨0, _⟩ => show win0_1.index t (0 : Fin 2) * 1024 + 1 * (x 0).val = (x 0).val; omega
  | ⟨1, _⟩ => show win0_1.index t (1 : Fin 2) * 2 + 1 * (x 1).val = (x 1).val; omega

/-- So does the weights'. -/
theorem iblk2_eq (c : Dev nD) (t : Fin cfg0.N) : iblk m c 2 t = V m c main_arg2 := by
  obtain ⟨-, -, -, -, e0, e1, -, -⟩ := idx_facts t
  funext x
  show V m c main_arg2 (((cfg0.win 2).blk t).view.emb x) = V m c main_arg2 x
  refine congrArg (V m c main_arg2) (funext fun a => Fin.ext ?_)
  match a with
  | ⟨0, _⟩ => show win0_2.index t (0 : Fin 2) * 1027 + 1 * (x 0).val = (x 0).val; omega
  | ⟨1, _⟩ => show win0_2.index t (1 : Fin 2) * 2 + 1 * (x 1).val = (x 1).val; omega

/-- WHAT POINT `t` WRITES BACK is block `t` of the transposed warp of the arrays as the region finds them. -/
theorem flushed_eq (c : Dev nD) (t : Fin cfg0.N) :
    (dats m 0 c).flushed 3 t
      = ((cfg0.win 3).blk t).view.read (Elt Ideal) (warpT (V m c main_v1) (V m c main_arg1) (V m c main_arg2)) := by
  show (cfg0.win 3).cut (grid0.coords t) ((dats m 0 c).after 3 t) = _
  rw [after0_3, out_eq, iblk1_eq, iblk2_eq]
  obtain ⟨a0, a1, -, -, -, -, d0, d1⟩ := idx_facts t
  funext y
  have hx : ∀ r : Fin 2, iblk m c 0 t (ix2 r (y 1)) = V m c main_v1 (ix2 r ((((cfg0.win 3).blk t).view.emb y) 1)) := fun r => by
    show V m c main_v1 (((cfg0.win 0).blk t).view.emb (ix2 r (y 1))) = _
    refine congrArg (V m c main_v1) (funext fun a => Fin.ext ?_)
    match a with
    | ⟨0, _⟩ => show win0_0.index t (0 : Fin 2) * 2 + 1 * r.val = r.val; omega
    | ⟨1, _⟩ => show win0_0.index t (1 : Fin 2) * 2048 + 1 * (y 1).val = win0_3.index t (1 : Fin 2) * 2048 + 1 * (y 1).val; omega
  have hy : iblk m c 0 t y = V m c main_v1 (((cfg0.win 3).blk t).view.emb y) := by
    show V m c main_v1 (((cfg0.win 0).blk t).view.emb y) = _
    refine congrArg (V m c main_v1) (funext fun a => Fin.ext ?_)
    match a with
    | ⟨0, _⟩ => show win0_0.index t (0 : Fin 2) * 2 + 1 * (y 0).val = win0_3.index t (0 : Fin 2) * 2 + 1 * (y 0).val; omega
    | ⟨1, _⟩ => show win0_0.index t (1 : Fin 2) * 2048 + 1 * (y 1).val = win0_3.index t (1 : Fin 2) * 2048 + 1 * (y 1).val; omega
  have hj : (y 0 : Fin 2) = (((cfg0.win 3).blk t).view.emb y) 0 :=
    Fin.ext (by show (y 0).val = win0_3.index t (0 : Fin 2) * 2 + 1 * (y 0).val; omega)
  show warpOf (V m c main_arg1) (V m c main_arg2) (iblk m c 0 t (ix2 (0 : Fin 2) (y 1))) (iblk m c 0 t (ix2 (1 : Fin 2) (y 1)))
      (iblk m c 0 t y) (y 0)
    = warpOf (V m c main_arg1) (V m c main_arg2) (V m c main_v1 (ix2 (0 : Fin 2) ((((cfg0.win 3).blk t).view.emb y) 1)))
      (V m c main_v1 (ix2 (1 : Fin 2) ((((cfg0.win 3).blk t).view.emb y) 1))) (V m c main_v1 (((cfg0.win 3).blk t).view.emb y))
      ((((cfg0.win 3).blk t).view.emb y) 0)
  rw [hx 0, hx 1, hy]
  exact congrArg _ hj

/-- An index of the output array is in point `t`'s block iff each coordinate is in the block's range on its axis. -/
theorem mem_blk (t : Fin cfg0.N) (i : S2x120832.Idx) :
    i ∈ ((cfg0.win 3).blk t).view.set ↔ ∀ a : Fin 2, win0_3.index t a * S2x2048.size a ≤ (i a).val
      ∧ (i a).val < win0_3.index t a * S2x2048.size a + S2x2048.size a := by
  show i ∈ ((View.whole main_v2).slice (win0_3.rect t)).set ↔ _
  rw [View.set_slice_whole, Rect.mem_set_unit]
  exact Iff.rfl

/-- The 59 blocks tile the array: column `n` is in the block of point `n / 2048`. -/
theorem cover (i : S2x120832.Idx) : ∃ t : Fin cfg0.N, (cfg0.win 3).flush t = true ∧ i ∈ ((cfg0.win 3).blk t).view.set := by
  have hi0 : (i 0).val < 2 := (i 0).isLt
  have hi1 : (i 1).val < 120832 := (i 1).isLt
  have hN : cfg0.N = 59 := N_0
  let t : Fin cfg0.N := ⟨(i 1).val / 2048, by rw [hN]; omega⟩
  obtain ⟨-, -, -, -, -, -, d0, d1⟩ := idx_facts t
  have d1' : win0_3.index t (1 : Fin 2) = (i 1).val / 2048 := d1
  refine ⟨t, flush0_3 t, ?_⟩
  rw [mem_blk]
  intro a
  match a with
  | ⟨0, _⟩ => show win0_3.index t (0 : Fin 2) * 2 ≤ (i 0).val ∧ (i 0).val < win0_3.index t (0 : Fin 2) * 2 + 2; omega
  | ⟨1, _⟩ => show win0_3.index t (1 : Fin 2) * 2048 ≤ (i 1).val ∧ (i 1).val < win0_3.index t (1 : Fin 2) * 2048 + 2048; omega

/-- THE OUTPUT ARRAY after the region: the transposed warp of the arrays as the region finds them. -/
theorem final (c : Dev nD) :
    (dats m 0 c).arrAt 3 cfg0.N = warpT (V m c main_v1) (V m c main_arg1) (V m c main_arg2) :=
  (dats m 0 c).arrAt_eq_of_cover 3 _ (fun t _ => flushed_eq m c t) cover

end Cert.TpsWarp.Region

end
-- ==== Proof.KernelHost.lean ====
/-
  The kernel program's result, as one function of its arguments.

  `@main` pads the `[120000, 2]` point array with 832 zero rows and transposes it; the region maps the
  `[2, 120832]` array to the transposed warp (Proof/KernelArray.lean); `@main` transposes that back and keeps the first
  120000 rows. Row `n < 120000` of the result reads column `n` of the region's output, which depends on column `n` of
  the transposed points only — point `n` of the argument, never a padding row — so the result at `(n, j)` is the
  warp `Cert.TpsWarp.warpAt` of the arguments.
-/
import proofs.«118993_j17463337025574_1_alg».proof.Proof.KernelArray
import Idealize.ShloMosaic.Lib.StableHlo.Run
import Idealize.ShloMosaic.Lib.KernelVsHost

noncomputable section

namespace Cert.TpsWarp.Main

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.TpsWarp Cert.TpsWarp.Block Cert.TpsWarp.Region

variable (m : (ℓ : Loc nD τ sig) → Buf (Elt Ideal) ℓ) (ρ : Dev nD → PrngReg)

/-- The array the region reads its points from is the argument, padded and transposed. -/
theorem entry_points (c : Dev nD) :
    (V m c main_v1 : S2x120832.Idx → EReal)
      = transpose S2x120832 [1, 0]
          (pad S120832x2 ![0, 0] ![832, 0] ![0, 0] (m ((c : Thread nD τ).loc main_arg0))
            (sitofp (F := Ideal) .f32 (constantI S_ 32 0#32)) pads_S120000x2_S120832x2_08320_000 h_S_)
          transposes_S120832x2_S2x120832_1_0 := by
  dsimp only [V, V0]
  simp only [hostOps0, hostOps0_1, hostOps0_2, List.flatten_cons, List.flatten_nil, List.append_nil, List.cons_append,
    List.nil_append]
  after_results
  rfl

/-- Its column `n < 120000` is point `n` of the argument. -/
theorem entry_points_apply (c : Dev nD) (j : Fin 2) (n : Fin 120000) :
    V m c main_v1 (ix2 j (⟨n.val, by omega⟩ : Fin 120832)) = m ((c : Thread nD τ).loc main_arg0) (ix2 n j) := by
  rw [entry_points, transpose_ix2_apply]
  exact pad_apply_of_inside _ _ _ _ _ pads_S120000x2_S120832x2_08320_000 h_S_ _ (ix2 n j) (fun a => by
    match a with
    | ⟨0, _⟩ => show n.val = 0 + n.val * (0 + 1); omega
    | ⟨1, _⟩ => show j.val = 0 + j.val * (0 + 1); omega)

/-- The result buffer after the host operations that follow the region: the region's output transposed back, its
    first 120000 rows. -/
theorem tail_eq (c : Dev nD) :
    (Pipeline.afterTail₀ cfgs (dats m) 0 (V0 m) [hostOps1] c main_v4 : S120000x2.Idx → EReal)
      = extractStridedSlice S120000x2 ![0, 0]
          (transpose S120832x2 [1, 0] (warpT (V m c main_v1) (V m c main_arg1) (V m c main_arg2)) transposes_S2x120832_S120832x2_1_0)
          slices_S120832x2_S120000x2_0_0 := by
  unfold Pipeline.afterTail₀
  show StableHlo.after hostOps1 _ (Proc.devRef .tc main_v4) = _
  after_results
  rw [(Pipeline.withArrays_arr spec0 launch0.win.arr_inj c _ _ 3).trans (final m c)]

/-- THE KERNEL PROGRAM'S RESULT at `(n, j)` is the warp of its arguments. -/
theorem result_apply (c : Dev nD) (n : Fin 120000) (j : Fin 2) :
    Pipeline.afterTail₀ cfgs (dats m) 0 (V0 m) [hostOps1] c main_v4 (ix2 n j)
      = warpAt (m ((c : Thread nD τ).loc main_arg0)) (m ((c : Thread nD τ).loc main_arg1)) (m ((c : Thread nD τ).loc main_arg2)) n j := by
  rw [tail_eq, slice2_apply 0 0 _ slices_S120832x2_S120000x2_0_0 n j (⟨n.val, by omega⟩ : Fin 120832) j
    (Nat.zero_add _).symm (Nat.zero_add _).symm, transpose_ix2_apply]
  show warpOf (V m c main_arg1) (V m c main_arg2) (V m c main_v1 (ix2 (0 : Fin 2) (⟨n.val, by omega⟩ : Fin 120832)))
      (V m c main_v1 (ix2 (1 : Fin 2) (⟨n.val, by omega⟩ : Fin 120832))) (V m c main_v1 (ix2 j (⟨n.val, by omega⟩ : Fin 120832))) j = _
  rw [entry_points_apply, entry_points_apply, entry_points_apply, V_main_arg1, V_main_arg2]
  rfl

/-- The kernel program's result as a whole array. -/
def result (pts : S120000x2.Idx → EReal) (kps : S1024x2.Idx → EReal) (W : S1027x2.Idx → EReal) : S120000x2.Idx → EReal :=
  fun i => warpAt pts kps W (i 0) (i 1)

theorem result_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2)) := by
  funext i
  obtain ⟨n, j, rfl⟩ : ∃ (n : Fin 120000) (j : Fin 2), i = ix2 n j := ⟨i 0, i 1, eq_ix2 i⟩
  exact result_apply m c n j

/-- THE RUN of the kernel program: every weakly fair execution terminates with the result buffer at the warp of the
    arguments and the arguments unchanged. -/
theorem run : θ_run defs (onTc (τ := τ) (main (F := Ideal))) ⟨m, fun _ => 0, ρ⟩ fun r => ∀ c : Dev nD,
      r.2.mem ((c.tc : Thread nD τ).loc main_v4)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.TpsWarp.Main

end
-- ==== Proof.lean ====
/-
  A thin-plate-spline warp of 120000 query points by 1024 control points: the kernel against its jnp reference,
  over the extended reals.

  Both programs compute, for query point `n` and coordinate `j`,

      p_j + Σ_k rbf_k · W(k, j) + (W(1024, j) + W(1025, j) · x_n + W(1026, j) · y_n),

  where `rbf_k = (½ · g) · log g` and `g` is the squared distance of control point `k` and the query point, with
  `1` in place of `0` (Proof/Spec.lean: `Cert.TpsWarp.warpAt`).

  The REFERENCE forms the 1024 × 120000 matrix of the `rbf` values, stacks the rows `1`, `x`, `y` under it and
  contracts the 1027 rows with `W`; read at `(n, j)` (Proof/RefRead.lean) that is `p_j + Σ_{r < 1027} X(r) · W(r, j)`,
  which is the formula above because a sum over 1027 rows is the sum over the first 1024 plus the last three terms,
  `1 · w = w`, and `+` and `·` are commutative and associative on the extended reals. No distributive law is used, so
  the precondition (finite inputs) is never opened.

  The KERNEL pads the points to 59 tiles of 2048, transposes them, and at each tile forms the 1024 × 2048 matrix of
  `rbf` values, sums its products with a column of `W` over the control points and adds the affine part; the two rows
  it stores are the two coordinates of the warp of the tile's points (Proof/KernelBlock.lean). The 59 blocks tile the
  `[2, 120832]` output (Proof/KernelArray.lean), which `@main` transposes back and cuts to its first 120000 rows: row
  `n` reads column `n`, a point of the argument and never a padding row (Proof/KernelHost.lean).

  The kernel's termination, absence of faults and unchanged arguments are its frame, at the word level and at the
  extended reals; the reference's are its run with the result dropped. The idealization rewrote no operation, so
  `preserves` has nothing to state.
-/
import proofs.«118993_j17463337025574_1_alg».proof.Defs
import proofs.«118993_j17463337025574_1_alg».proof.Proof.Gen.Kernel
import proofs.«118993_j17463337025574_1_alg».proof.Proof.Gen.Kernel.Skeleton
import proofs.«118993_j17463337025574_1_alg».proof.Proof.Gen.Kernel.Launch
import proofs.«118993_j17463337025574_1_alg».proof.Proof.Gen.Kernel.Points
import proofs.«118993_j17463337025574_1_alg».proof.Proof.Gen.Kernel.Frame
import proofs.«118993_j17463337025574_1_alg».proof.Proof.Gen.KernelIdeal
import proofs.«118993_j17463337025574_1_alg».proof.Proof.Gen.KernelIdeal.Skeleton
import proofs.«118993_j17463337025574_1_alg».proof.Proof.Gen.KernelIdeal.Launch
import proofs.«118993_j17463337025574_1_alg».proof.Proof.Gen.KernelIdeal.Points
import proofs.«118993_j17463337025574_1_alg».proof.Proof.Gen.KernelIdeal.Frame
import proofs.«118993_j17463337025574_1_alg».proof.Proof.Gen.ReferenceIdeal
import proofs.«118993_j17463337025574_1_alg».proof.Proof.Gen.Pre_finite_inputs
import proofs.«118993_j17463337025574_1_alg».proof.Proof.Gen.ReferenceIdeal.Run
import proofs.«118993_j17463337025574_1_alg».proof.Proof.Gen.ReferenceIdeal.Read
import proofs.«118993_j17463337025574_1_alg».proof.Proof.RefRead
import proofs.«118993_j17463337025574_1_alg».proof.Proof.KernelHost
import Idealize.ShloMosaic.Adequacy
import Idealize.ShloMosaic.Init

noncomputable section

namespace Cert.Proof

open Idealize.ShloMosaic Idealize.ShloMosaic.ValueIdx Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the warp of the arguments in their result
    buffers: the kernel by its run (Proof/KernelHost.lean), the reference by its run read at an index
    (Proof/RefRead.lean). -/
theorem algebraic : Cert.algebraic_KernelIdeal_ReferenceIdeal := by
  intro m ρ m' ρ' _ hagree
  refine ⟨fun c => Cert.TpsWarp.Main.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.TpsWarp.Main.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2]
  funext i
  obtain ⟨n, j, rfl⟩ : ∃ (n : Fin 120000) (j : Fin 2), i = ix2 n j := ⟨i 0, i 1, eq_ix2 i⟩
  exact Cert.TpsWarp.Ref.result_apply _ _ _ n j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
